-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x64 : Shape := ⟨4, ![4, 32, 32, 64]⟩
abbrev S576x64 : Shape := ⟨2, ![576, 64]⟩
abbrev S_ : Shape := ⟨0, ![]⟩

class Facts : Prop where
  bcast_S_S4x32x32x64 : S_.BroadcastsInDim S4x32x32x64 (![] : Fin 0 → Fin S4x32x32x64.rank)
  reducesTo_S4x32x32x64_S_d0_1_2_3 : S4x32x32x64.ReducesTo [0, 1, 2, 3] S_
  h_S_ : 0 < S_.numel
  bcast_S_S576x64 : S_.BroadcastsInDim S576x64 (![] : Fin 0 → Fin S576x64.rank)
  reducesTo_S576x64_S_d0_1 : S576x64.ReducesTo [0, 1] S_

variable [Facts]

def fn {F : FTy → Type} [FloatOps F] (main_arg0 : FVec F S4x32x32x64 .f32) (main_arg1 : FVec F S576x64 .f32) : IVec S_ 1 :=
  let main_v0 : FVec F S4x32x32x64 .f32 := Host.absf main_arg0
  let main_cst : FVec F S_ .f32 := constant S_ .f32 0x7F800000#32
  let main_v1 : FVec F S4x32x32x64 .f32 := broadcastInDim S4x32x32x64 ![] bcast_S_S4x32x32x64 main_cst
  let main_v2 : IVec S4x32x32x64 1 := cmpf .olt main_v0 main_v1
  let main_c : IVec S_ 1 := constantI S_ 1 1#1
  let main_v3 : IVec S_ 1 := (fun x v => Host.reduce IntOp.andi x v reducesTo_S4x32x32x64_S_d0_1_2_3 h_S_) main_v2 main_c
  let main_v4 : FVec F S576x64 .f32 := Host.absf main_arg1
  let main_cst_0 : FVec F S_ .f32 := constant S_ .f32 0x7F800000#32
  let main_v5 : FVec F S576x64 .f32 := broadcastInDim S576x64 ![] bcast_S_S576x64 main_cst_0
  let main_v6 : IVec S576x64 1 := cmpf .olt main_v4 main_v5
  let main_c_1 : IVec S_ 1 := constantI S_ 1 1#1
  let main_v7 : IVec S_ 1 := (fun x v => Host.reduce IntOp.andi x v reducesTo_S576x64_S_d0_1 h_S_) main_v6 main_c_1
  let main_v8 : IVec S_ 1 := andi main_v3 main_v7
  main_v8
-- ==== Kernel.lean ====
abbrev S4x32x32x64 : Shape := ⟨4, ![4, 32, 32, 64]⟩
abbrev S576x64 : Shape := ⟨2, ![576, 64]⟩
abbrev S4x30x30x64 : Shape := ⟨4, ![4, 30, 30, 64]⟩
abbrev S4x30x30x1x64 : Shape := ⟨5, ![4, 30, 30, 1, 64]⟩
abbrev S4x30x30x9x64 : Shape := ⟨5, ![4, 30, 30, 9, 64]⟩
abbrev S4x30x30x576 : Shape := ⟨4, ![4, 30, 30, 576]⟩
abbrev S3600x576 : Shape := ⟨2, ![3600, 576]⟩
abbrev S64x576 : Shape := ⟨2, ![64, 576]⟩
abbrev S3600x64 : Shape := ⟨2, ![3600, 64]⟩
abbrev S720x576 : Shape := ⟨2, ![720, 576]⟩
abbrev S720x64 : Shape := ⟨2, ![720, 64]⟩
abbrev S64x64 : Shape := ⟨2, ![64, 64]⟩
abbrev S720x1x64 : Shape := ⟨3, ![720, 1, 64]⟩
abbrev S1x64x64 : Shape := ⟨3, ![1, 64, 64]⟩
abbrev S720x64x64 : Shape := ⟨3, ![720, 64, 64]⟩

abbrev nBuf : Space → Nat
  | .hbm => 26
  | .vmem => 5
  | .smem => 0
  | _ => 0

abbrev bufTy : (tb : Table) → Fin (tcTables nBuf tb) → BufTy
  | .hbm, ⟨0, _⟩ => ⟨S4x32x32x64, .f32⟩
  | .hbm, ⟨1, _⟩ => ⟨S576x64, .f32⟩
  | .hbm, ⟨2, _⟩ => ⟨S4x30x30x64, .f32⟩
  | .hbm, ⟨3, _⟩ => ⟨S4x30x30x64, .f32⟩
  | .hbm, ⟨4, _⟩ => ⟨S4x30x30x64, .f32⟩
  | .hbm, ⟨5, _⟩ => ⟨S4x30x30x64, .f32⟩
  | .hbm, ⟨6, _⟩ => ⟨S4x30x30x64, .f32⟩
  | .hbm, ⟨7, _⟩ => ⟨S4x30x30x64, .f32⟩
  | .hbm, ⟨8, _⟩ => ⟨S4x30x30x64, .f32⟩
  | .hbm, ⟨9, _⟩ => ⟨S4x30x30x64, .f32⟩
  | .hbm, ⟨10, _⟩ => ⟨S4x30x30x64, .f32⟩
  | .hbm, ⟨11, _⟩ => ⟨S4x30x30x1x64, .f32⟩
  | .hbm, ⟨12, _⟩ => ⟨S4x30x30x1x64, .f32⟩
  | .hbm, ⟨13, _⟩ => ⟨S4x30x30x1x64, .f32⟩
  | .hbm, ⟨14, _⟩ => ⟨S4x30x30x1x64, .f32⟩
  | .hbm, ⟨15, _⟩ => ⟨S4x30x30x1x64, .f32⟩
  | .hbm, ⟨16, _⟩ => ⟨S4x30x30x1x64, .f32⟩
  | .hbm, ⟨17, _⟩ => ⟨S4x30x30x1x64, .f32⟩
  | .hbm, ⟨18, _⟩ => ⟨S4x30x30x1x64, .f32⟩
  | .hbm, ⟨19, _⟩ => ⟨S4x30x30x1x64, .f32⟩
  | .hbm, ⟨20, _⟩ => ⟨S4x30x30x9x64, .f32⟩
  | .hbm, ⟨21, _⟩ => ⟨S4x30x30x576, .f32⟩
  | .hbm, ⟨22, _⟩ => ⟨S3600x576, .f32⟩
  | .hbm, ⟨23, _⟩ => ⟨S64x576, .f32⟩
  | .hbm, ⟨24, _⟩ => ⟨S3600x64, .f32⟩
  | .hbm, ⟨25, _⟩ => ⟨S4x30x30x64, .f32⟩
  | .local _ .vmem, ⟨0, _⟩ => ⟨S720x576, .f32⟩
  | .local _ .vmem, ⟨1, _⟩ => ⟨S720x576, .f32⟩
  | .local _ .vmem, ⟨2, _⟩ => ⟨S64x576, .f32⟩
  | .local _ .vmem, ⟨3, _⟩ => ⟨S720x64, .f32⟩
  | .local _ .vmem, ⟨4, _⟩ => ⟨S720x64, .f32⟩
  | _, _ => ⟨S4x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S720x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S720x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S4x32x32x64_S4x30x30x64_0_0_0_0 : S4x32x32x64.Slices ![0, 0, 0, 0] S4x30x30x64
  slices_S4x32x32x64_S4x30x30x64_0_0_1_0 : S4x32x32x64.Slices ![0, 0, 1, 0] S4x30x30x64
  slices_S4x32x32x64_S4x30x30x64_0_0_2_0 : S4x32x32x64.Slices ![0, 0, 2, 0] S4x30x30x64
  slices_S4x32x32x64_S4x30x30x64_0_1_0_0 : S4x32x32x64.Slices ![0, 1, 0, 0] S4x30x30x64
  slices_S4x32x32x64_S4x30x30x64_0_1_1_0 : S4x32x32x64.Slices ![0, 1, 1, 0] S4x30x30x64
  slices_S4x32x32x64_S4x30x30x64_0_1_2_0 : S4x32x32x64.Slices ![0, 1, 2, 0] S4x30x30x64
  slices_S4x32x32x64_S4x30x30x64_0_2_0_0 : S4x32x32x64.Slices ![0, 2, 0, 0] S4x30x30x64
  slices_S4x32x32x64_S4x30x30x64_0_2_1_0 : S4x32x32x64.Slices ![0, 2, 1, 0] S4x30x30x64
  slices_S4x32x32x64_S4x30x30x64_0_2_2_0 : S4x32x32x64.Slices ![0, 2, 2, 0] S4x30x30x64
  bcast_S4x30x30x64_S4x30x30x1x64_0_1_2_4 : S4x30x30x64.BroadcastsInDim S4x30x30x1x64 (![0, 1, 2, 4] : Fin 4 → Fin S4x30x30x1x64.rank)
  concatenates_S4x30x30x1x64_S4x30x30x1x64_S4x30x30x1x64_S4x30x30x1x64_S4x30x30x1x64_S4x30x30x1x64_S4x30x30x1x64_S4x30x30x1x64_S4x30x30x1x64_S4x30x30x9x64_d3 : Shape.Concatenates [S4x30x30x1x64, S4x30x30x1x64, S4x30x30x1x64, S4x30x30x1x64, S4x30x30x1x64, S4x30x30x1x64, S4x30x30x1x64, S4x30x30x1x64, S4x30x30x1x64] S4x30x30x9x64 3
  shapeCasts_S4x30x30x9x64_S4x30x30x576 : S4x30x30x9x64.ShapeCasts S4x30x30x576
  shapeCasts_S4x30x30x576_S3600x576 : S4x30x30x576.ShapeCasts S3600x576
  transposes_S576x64_S64x576_1_0 : S576x64.Transposes [1, 0] S64x576
  inb_S720x576_S720x576_0_0 : ∀ a, (![0, 0] : Fin 2 → Nat) a + S720x576.size a ≤ S720x576.size a
  h_S720x576 : 0 < S720x576.numel
  shapeCasts_S720x576_S720x576 : S720x576.ShapeCasts S720x576
  inb_S64x576_S64x576_0_0 : ∀ a, (![0, 0] : Fin 2 → Nat) a + S64x576.size a ≤ S64x576.size a
  h_S64x576 : 0 < S64x576.numel
  shapeCasts_S64x576_S64x576 : S64x576.ShapeCasts S64x576
  slices_S720x576_o0_0_S720x64 : S720x576.Slices ![0, 0] S720x64
  slices_S64x576_o0_0_S64x64 : S64x576.Slices ![0, 0] S64x64
  shapeCasts_S720x64_S720x1x64 : S720x64.ShapeCasts S720x1x64
  shapeCasts_S64x64_S1x64x64 : S64x64.ShapeCasts S1x64x64
  broadcasts_S720x1x64_S720x64x64 : S720x1x64.Broadcasts S720x64x64
  broadcasts_S1x64x64_S720x64x64 : S1x64x64.Broadcasts S720x64x64
  reduces_S720x64x64_S720x64 : S720x64x64.Reduces [2] S720x64
  slices_S720x576_o0_64_S720x64 : S720x576.Slices ![0, 64] S720x64
  slices_S64x576_o0_64_S64x64 : S64x576.Slices ![0, 64] S64x64
  slices_S720x576_o0_128_S720x64 : S720x576.Slices ![0, 128] S720x64
  slices_S64x576_o0_128_S64x64 : S64x576.Slices ![0, 128] S64x64
  slices_S720x576_o0_192_S720x64 : S720x576.Slices ![0, 192] S720x64
  slices_S64x576_o0_192_S64x64 : S64x576.Slices ![0, 192] S64x64
  slices_S720x576_o0_256_S720x64 : S720x576.Slices ![0, 256] S720x64
  slices_S64x576_o0_256_S64x64 : S64x576.Slices ![0, 256] S64x64
  slices_S720x576_o0_320_S720x64 : S720x576.Slices ![0, 320] S720x64
  slices_S64x576_o0_320_S64x64 : S64x576.Slices ![0, 320] S64x64
  slices_S720x576_o0_384_S720x64 : S720x576.Slices ![0, 384] S720x64
  slices_S64x576_o0_384_S64x64 : S64x576.Slices ![0, 384] S64x64
  slices_S720x576_o0_448_S720x64 : S720x576.Slices ![0, 448] S720x64
  slices_S64x576_o0_448_S64x64 : S64x576.Slices ![0, 448] S64x64
  slices_S720x576_o0_512_S720x64 : S720x576.Slices ![0, 512] S720x64
  slices_S64x576_o0_512_S64x64 : S64x576.Slices ![0, 512] S64x64
  inb_S720x64_S720x64_0_0 : ∀ a, (![0, 0] : Fin 2 → Nat) a + S720x64.size a ≤ S720x64.size a
  h_S720x64 : 0 < S720x64.numel
  shapeCasts_S3600x64_S4x30x30x64 : S3600x64.ShapeCasts S4x30x30x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S720x576.size a ≤ S3600x576.size a
  hwx0_0 : ∀ i : grid0.Coords, EltTy.bits .f32 = 32 ∨ (Rect.block (s := S3600x576) S720x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x576.size a ≤ S64x576.size a
  hwx0_1 : ∀ i : grid0.Coords, EltTy.bits .f32 = 32 ∨ (Rect.block (s := S64x576) S64x576.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S720x64.size a ≤ S3600x64.size a
  hwx0_2 : ∀ i : grid0.Coords, EltTy.bits .f32 = 32 ∨ (Rect.block (s := S3600x64) S720x64.size (cc0_transform_2 i) (hinb0_2 i)).WholeWords (EltTy.packing .f32)

variable [Facts₀]

abbrev win0_0 : Pipeline.Window sig grid0 :=
  Pipeline.Window.ofSpec (Memref.whole main_v20) S720x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x576.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S720x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x32x64 : Shape := ⟨4, ![4, 32, 32, 64]⟩
abbrev S576x64 : Shape := ⟨2, ![576, 64]⟩
abbrev S4x30x30x64 : Shape := ⟨4, ![4, 30, 30, 64]⟩
abbrev S4x30x30x1x64 : Shape := ⟨5, ![4, 30, 30, 1, 64]⟩
abbrev S4x30x30x9x64 : Shape := ⟨5, ![4, 30, 30, 9, 64]⟩
abbrev S4x30x30x576 : Shape := ⟨4, ![4, 30, 30, 576]⟩
abbrev S4x30x30x576x1 : Shape := ⟨5, ![4, 30, 30, 576, 1]⟩
abbrev S1x1x1x576x64 : Shape := ⟨5, ![1, 1, 1, 576, 64]⟩
abbrev S4x30x30x576x64 : Shape := ⟨5, ![4, 30, 30, 576, 64]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x32x32x64, .f32⟩
  | .hbm, ⟨1, _⟩ => ⟨S576x64, .f32⟩
  | .hbm, ⟨2, _⟩ => ⟨S4x30x30x64, .f32⟩
  | .hbm, ⟨3, _⟩ => ⟨S4x30x30x64, .f32⟩
  | .hbm, ⟨4, _⟩ => ⟨S4x30x30x64, .f32⟩
  | .hbm, ⟨5, _⟩ => ⟨S4x30x30x64, .f32⟩
  | .hbm, ⟨6, _⟩ => ⟨S4x30x30x64, .f32⟩
  | .hbm, ⟨7, _⟩ => ⟨S4x30x30x64, .f32⟩
  | .hbm, ⟨8, _⟩ => ⟨S4x30x30x64, .f32⟩
  | .hbm, ⟨9, _⟩ => ⟨S4x30x30x64, .f32⟩
  | .hbm, ⟨10, _⟩ => ⟨S4x30x30x64, .f32⟩
  | .hbm, ⟨11, _⟩ => ⟨S4x30x30x1x64, .f32⟩
  | .hbm, ⟨12, _⟩ => ⟨S4x30x30x1x64, .f32⟩
  | .hbm, ⟨13, _⟩ => ⟨S4x30x30x1x64, .f32⟩
  | .hbm, ⟨14, _⟩ => ⟨S4x30x30x1x64, .f32⟩
  | .hbm, ⟨15, _⟩ => ⟨S4x30x30x1x64, .f32⟩
  | .hbm, ⟨16, _⟩ => ⟨S4x30x30x1x64, .f32⟩
  | .hbm, ⟨17, _⟩ => ⟨S4x30x30x1x64, .f32⟩
  | .hbm, ⟨18, _⟩ => ⟨S4x30x30x1x64, .f32⟩
  | .hbm, ⟨19, _⟩ => ⟨S4x30x30x1x64, .f32⟩
  | .hbm, ⟨20, _⟩ => ⟨S4x30x30x9x64, .f32⟩
  | .hbm, ⟨21, _⟩ => ⟨S4x30x30x576, .f32⟩
  | .hbm, ⟨22, _⟩ => ⟨S4x30x30x576x1, .f32⟩
  | .hbm, ⟨23, _⟩ => ⟨S1x1x1x576x64, .f32⟩
  | .hbm, ⟨24, _⟩ => ⟨S4x30x30x576x64, .f32⟩
  | .hbm, ⟨25, _⟩ => ⟨S4x30x30x576x64, .f32⟩
  | .hbm, ⟨26, _⟩ => ⟨S4x30x30x576x64, .f32⟩
  | .hbm, ⟨27, _⟩ => ⟨S_, .f32⟩
  | .hbm, ⟨28, _⟩ => ⟨S4x30x30x64, .f32⟩
  | .hbm, ⟨29, _⟩ => ⟨S_, .f32⟩
  | .hbm, ⟨30, _⟩ => ⟨S4x30x30x64, .f32⟩
  | .hbm, ⟨31, _⟩ => ⟨S4x30x30x64, .f32⟩
  | _, _ => ⟨S4x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_cst : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]

class Facts₀ : Prop where
  slices_S4x32x32x64_S4x30x30x64_0_0_0_0 : S4x32x32x64.Slices ![0, 0, 0, 0] S4x30x30x64
  slices_S4x32x32x64_S4x30x30x64_0_0_1_0 : S4x32x32x64.Slices ![0, 0, 1, 0] S4x30x30x64
  slices_S4x32x32x64_S4x30x30x64_0_0_2_0 : S4x32x32x64.Slices ![0, 0, 2, 0] S4x30x30x64
  slices_S4x32x32x64_S4x30x30x64_0_1_0_0 : S4x32x32x64.Slices ![0, 1, 0, 0] S4x30x30x64
  slices_S4x32x32x64_S4x30x30x64_0_1_1_0 : S4x32x32x64.Slices ![0, 1, 1, 0] S4x30x30x64
  slices_S4x32x32x64_S4x30x30x64_0_1_2_0 : S4x32x32x64.Slices ![0, 1, 2, 0] S4x30x30x64
  slices_S4x32x32x64_S4x30x30x64_0_2_0_0 : S4x32x32x64.Slices ![0, 2, 0, 0] S4x30x30x64
  slices_S4x32x32x64_S4x30x30x64_0_2_1_0 : S4x32x32x64.Slices ![0, 2, 1, 0] S4x30x30x64
  slices_S4x32x32x64_S4x30x30x64_0_2_2_0 : S4x32x32x64.Slices ![0, 2, 2, 0] S4x30x30x64
  bcast_S4x30x30x64_S4x30x30x1x64_0_1_2_4 : S4x30x30x64.BroadcastsInDim S4x30x30x1x64 (![0, 1, 2, 4] : Fin 4 → Fin S4x30x30x1x64.rank)
  concatenates_S4x30x30x1x64_S4x30x30x1x64_S4x30x30x1x64_S4x30x30x1x64_S4x30x30x1x64_S4x30x30x1x64_S4x30x30x1x64_S4x30x30x1x64_S4x30x30x1x64_S4x30x30x9x64_d3 : Shape.Concatenates [S4x30x30x1x64, S4x30x30x1x64, S4x30x30x1x64, S4x30x30x1x64, S4x30x30x1x64, S4x30x30x1x64, S4x30x30x1x64, S4x30x30x1x64, S4x30x30x1x64] S4x30x30x9x64 3
  shapeCasts_S4x30x30x9x64_S4x30x30x576 : S4x30x30x9x64.ShapeCasts S4x30x30x576
  bcast_S4x30x30x576_S4x30x30x576x1_0_1_2_3 : S4x30x30x576.BroadcastsInDim S4x30x30x576x1 (![0, 1, 2, 3] : Fin 4 → Fin S4x30x30x576x1.rank)
  bcast_S576x64_S1x1x1x576x64_3_4 : S576x64.BroadcastsInDim S1x1x1x576x64 (![3, 4] : Fin 2 → Fin S1x1x1x576x64.rank)
  bcast_S4x30x30x576x1_S4x30x30x576x64_0_1_2_3_4 : S4x30x30x576x1.BroadcastsInDim S4x30x30x576x64 (![0, 1, 2, 3, 4] : Fin 5 → Fin S4x30x30x576x64.rank)
  bcast_S1x1x1x576x64_S4x30x30x576x64_0_1_2_3_4 : S1x1x1x576x64.BroadcastsInDim S4x30x30x576x64 (![0, 1, 2, 3, 4] : Fin 5 → Fin S4x30x30x576x64.rank)
  reducesTo_S4x30x30x576x64_S4x30x30x64_d3 : S4x30x30x576x64.ReducesTo [3] S4x30x30x64
  h_S_ : 0 < S_.numel
  bcast_S_S4x30x30x64 : S_.BroadcastsInDim S4x30x30x64 (![] : Fin 0 → Fin S4x30x30x64.rank)

variable [Facts₀]

class Facts : Prop extends Facts₀ where

variable [Facts]
-- ==== Proof.TropFrameBits.lean ====
/-
  The frame of the max-plus ("tropical") convolution program, and the run it comes from.

  @main is a stretch of layout operations (nine shifted slices of the image, stacked and flattened into the
  patch matrix [3600, 576]; the weight matrix transposed to [64, 576]), one pipelined region over five row
  blocks of 720 patches, and a final reshape of the [3600, 64] result. The region's body reads its two input
  blocks whole and overwrites its output block whole, so what it leaves in the output's staging buffer is one
  pure function of the two input blocks (`tropOut`), the same at every grid point.

  Stated here, for any float instance: the contents the region is entered with (`entry`), each window's block
  of them (`blockAt`), the body's triple (`body_triple`), the proof data of the pipeline (`pdata`), the run of
  @main to the library's frame post (`run_main`) and, read off it, that the two argument arrays end as they
  were launched (`frame`). A value proof continues from `run_main`.
-/
import proofs.«172711_j9749575762016_1_alg».proof.Proof.Gen.Kernel.Launch
import proofs.«172711_j9749575762016_1_alg».proof.Proof.Gen.Kernel.Skeleton
import proofs.«172711_j9749575762016_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Trop

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The layout operations around the region -/

/-- What core `c`'s buffers hold when the region is entered: the launch contents after the layout operations that
    build the patch matrix and the transposed weights. -/
abbrev entry (c : Dev nD) : Valuation τ sig (Elt F) := StableHlo.after (List.flatten [hostOps0]) (fun b => m (c, b))
/-- The same, read at a buffer of the core. -/
abbrev entryAt (c : Dev nD) (b : Ref sig .tc) : Buf (Elt F) ((c : Thread nD τ).loc b) := entry m c (Proc.devRef .tc b)

/-- None of the operations before the region allocates. -/
theorem prefix_fresh : (hostOps0 : List (HloOp τ sig (Elt F))).Forall fun op => op.fresh = ∅ := by
  simp only [List.Forall]; repeat' constructor
/-- Nor does the reshape after it. -/
theorem suffix_fresh : (hostOps1 : List (HloOp τ sig (Elt F))).Forall fun op => op.fresh = ∅ := by
  simp only [List.Forall]; repeat' constructor

/-- @main is: the operations before the region, the region, the reshape after it; so from the launch contents it
    reduces to the region entered at `entryAt` and continued by the reshape. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The reshape after the region touches only buffers that are arrays of the pipeline or bypass it. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem suffix_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp suffix_fresh) op hop

/-- It writes its own result buffer, which is none of the three arrays the pipeline stages. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-- No operation before the region writes the image: the region finds it as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor the weight matrix. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- The reshape after the region writes neither, and neither is an array of the pipeline: after everything the
    image is as launched, -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c

/-- and so is the weight matrix. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-! ## The windows' blocks -/

/-- Window `w`'s block at grid point `t`: for the patch matrix rows 720·t … 720·t + 719, for the transposed weights
    the whole matrix, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The body never stores into the patch window's buffer, so at every point that buffer holds the point's block. -/
theorem found_patches {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window is fetched once, at the first point, and its block index never moves: at every point its
    buffer holds the whole transposed matrix. -/
theorem found_weights {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The three whole-buffer rectangles the body loads and stores through. -/
abbrev rPatches : Rect S720x576 := Rect.unit (s := S720x576) ![0, 0] S720x576.size inb_S720x576_S720x576_0_0
abbrev rWeights : Rect S64x576 := Rect.unit (s := S64x576) ![0, 0] S64x576.size inb_S64x576_S64x576_0_0
abbrev rOut : Rect S720x64 := Rect.unit (s := S720x64) ![0, 0] S720x64.size inb_S720x64_S720x64_0_0

/-- The output block after the body, from the patch block `x0` and the weight block `x1`: the one store's value —
    the running maximum over the nine groups of 64 channels of patch entry plus weight — laid over the whole block. -/
def tropOut (x0 : Vec F S720x576 .f32) (x1 : Vec F S64x576 .f32) : Vec F S720x64 .f32 :=
  View.canon [⟨rOut, k0_pay1 (k0_pay2 (View.ld x0 rPatches)) (k0_pay3 (View.ld x1 rWeights))
    (k0_pay4 (View.ld x0 rPatches) (View.ld x1 rWeights)) (k0_pay5 (View.ld x0 rPatches) (View.ld x1 rWeights))⟩]

/-- That one store covers the block. -/
theorem out_covered (p0 : Vec F S720x64 .f32) (y : S720x64.Idx) :
    ∃ pc ∈ ([⟨rOut, p0⟩] : List (View.Piece (Elt F) S720x64 .f32)), y ∈ pc.1.set :=
  View.cover_of_tiled [⟨rOut, p0⟩] S720x64.size (by rfl) y

/-! ## The body's triple -/

set_option maxHeartbeats 1000000 in
/-- The body, on whole staging buffers holding a patch block `x0`, a weight block `x1` and anything in the output
    block, returns with the inputs as they were and the output block at `tropOut x0 x1`. -/
theorem body_triple (c : Dev nD) (E : Set ℕ) (i : grid0.Coords)
    (arg1 : Memref sig .tc .vmem S720x576 .f32) (harg1 : arg1.IsWhole) (arg2 : Memref sig .tc .vmem S64x576 .f32) (harg2 : arg2.IsWhole)
    (arg3 : Memref sig .tc .vmem S720x64 .f32) (harg3 : arg3.IsWhole)
    (x0 : Vec F S720x576 .f32) (x1 : Vec F S64x576 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tropOut x0 x1)) -∗ K ⟨⟩))
      ⊢ wp frame (wpE (defs₀ (F := F)) Variants.none c none) E (cc0__tropical_kernel i arg1 harg1 arg2 harg2 arg3 harg3) K := by
  simp only [cc0__tropical_kernel_eq_skeleton]; unfold cc0__tropical_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The pipeline's proof data -/

/-- On core `c`: the three arrays as the region finds them; after the body at point `t` the two inputs' buffers
    still at their blocks and the output's at `tropOut` of them; nothing else held, nothing owed. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => tropOut (blockAt m c 0 t) (blockAt m c 1 t)
  Φ _ := Pipeline.ΦA spec0 c
  q _ := fullShare
  owed _ := 0

theorem pdata_A (c : Dev nD) (w : Fin cfg0.W) : (pdata m 0 c).A w = entryAt m c (Pipeline.arrRef spec0 w) := by
  dsimp only [pdata]

theorem after_patches (c : Dev nD) (t : Fin cfg0.N) : (pdata m 0 c).after 0 t = blockAt m c 0 t := by dsimp only [pdata]
theorem after_weights (c : Dev nD) (t : Fin cfg0.N) : (pdata m 0 c).after 1 t = blockAt m c 1 t := by dsimp only [pdata]
theorem after_out (c : Dev nD) (t : Fin cfg0.N) : (pdata m 0 c).after 2 t = tropOut (blockAt m c 0 t) (blockAt m c 1 t) := by dsimp only [pdata]

theorem before_patches (c : Dev nD) (t : Fin cfg0.N) (d) : (pdata m 0 c).before 0 t d = blockAt m c 0 t :=
  found_patches m (pdata m 0 c) (pdata_A m c 0) (after_patches m c) t d
theorem before_weights (c : Dev nD) (t : Fin cfg0.N) (d) : (pdata m 0 c).before 1 t d = blockAt m c 1 t :=
  found_weights m (pdata m 0 c) (pdata_A m c 1) (after_weights m c) t d

/-! ## The body obligation -/

/-- What the body is called with at point `t`, -/
def atCall (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns. -/
def atReturn (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

theorem body_at (c : Dev nD) (t : Fin cfg0.N) :
    atCall m c t ⊢ wp frame (wpE (defs₀ (F := F)) Variants.none c none) Set.univ (bodyAt0 t) (fun _ => atReturn m c t) := by
  unfold atCall atReturn bodyAt0
  simp only [before_patches, before_weights]
  rw [show (pdata m 0 c).Φ t.succ = (pdata m 0 c).Φ t.castSucc from rfl,
    show (pdata m 0 c).owesAt () t.succ = (pdata m 0 c).owesAt () t.castSucc from rfl,
    after_patches, after_weights, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- Every weakly fair execution of @main from the launch state terminates without a fault; at the end each of the
    three staged arrays holds what the write-backs made of it, and every other buffer what the final reshape left. -/
theorem run_main : θ_run defs (onTc (τ := τ) (main (F := F))) (s₀ m ρ) (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := suffix_sub) (hfresh := suffix_fresh') (hkeep := suffix_keeps)
    (hmain := main_around m Variants.none) (hA := pdata_A m) (hΦ := fun _ _ => rfl)

/-- The two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (exit_arg0 m (pdata m) c),
     ((h c).2 main_arg1 (Pipeline.mem_restRefs_of main_arg1 (by decide) (by decide))).trans (exit_arg1 m (pdata m) c)⟩) (run_main m ρ)

end Cert.Kernel.Trop

end
-- ==== Proof.TropFrameIdeal.lean ====
/-
  The frame of the max-plus ("tropical") convolution program, and the run it comes from.

  @main is a stretch of layout operations (nine shifted slices of the image, stacked and flattened into the
  patch matrix [3600, 576]; the weight matrix transposed to [64, 576]), one pipelined region over five row
  blocks of 720 patches, and a final reshape of the [3600, 64] result. The region's body reads its two input
  blocks whole and overwrites its output block whole, so what it leaves in the output's staging buffer is one
  pure function of the two input blocks (`tropOut`), the same at every grid point.

  Stated here, for any float instance: the contents the region is entered with (`entry`), each window's block
  of them (`blockAt`), the body's triple (`body_triple`), the proof data of the pipeline (`pdata`), the run of
  @main to the library's frame post (`run_main`) and, read off it, that the two argument arrays end as they
  were launched (`frame`). A value proof continues from `run_main`.
-/
import proofs.«172711_j9749575762016_1_alg».proof.Proof.Gen.KernelIdeal.Launch
import proofs.«172711_j9749575762016_1_alg».proof.Proof.Gen.KernelIdeal.Skeleton
import proofs.«172711_j9749575762016_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Trop

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The layout operations around the region -/

/-- What core `c`'s buffers hold when the region is entered: the launch contents after the layout operations that
    build the patch matrix and the transposed weights. -/
abbrev entry (c : Dev nD) : Valuation τ sig (Elt F) := StableHlo.after (List.flatten [hostOps0]) (fun b => m (c, b))
/-- The same, read at a buffer of the core. -/
abbrev entryAt (c : Dev nD) (b : Ref sig .tc) : Buf (Elt F) ((c : Thread nD τ).loc b) := entry m c (Proc.devRef .tc b)

/-- None of the operations before the region allocates. -/
theorem prefix_fresh : (hostOps0 : List (HloOp τ sig (Elt F))).Forall fun op => op.fresh = ∅ := by
  simp only [List.Forall]; repeat' constructor
/-- Nor does the reshape after it. -/
theorem suffix_fresh : (hostOps1 : List (HloOp τ sig (Elt F))).Forall fun op => op.fresh = ∅ := by
  simp only [List.Forall]; repeat' constructor

/-- @main is: the operations before the region, the region, the reshape after it; so from the launch contents it
    reduces to the region entered at `entryAt` and continued by the reshape. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The reshape after the region touches only buffers that are arrays of the pipeline or bypass it. -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem suffix_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp suffix_fresh) op hop

/-- It writes its own result buffer, which is none of the three arrays the pipeline stages. -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.reshape_writes, Finset.mem_singleton] <;> exact StableHlo.devRef_ne_of_ne (by decide)

/-- No operation before the region writes the image: the region finds it as launched. -/
theorem entry_arg0 (c : Dev nD) : entryAt m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor the weight matrix. -/
theorem entry_arg1 (c : Dev nD) : entryAt m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- The reshape after the region writes neither, and neither is an array of the pipeline: after everything the
    image is as launched, -/
theorem exit_arg0 (dats : (p : Fin _) → (c : Dev nD) → Dat τ (Elt F) Unit ℕ (UR sig nD τ) ℕ (cfgs p) c) (c : Dev nD) :
    Pipeline.afterTail₀ cfgs dats 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg0 (by exact (by decide : ∀ w, Pipeline.arrRef spec0 w ≠ main_arg0))]
  exact entry_arg0 m c

/-- and so is the weight matrix. -/
theorem exit_arg1 (dats : (p : Fin _) → (c : Dev nD) → Dat τ (Elt F) Unit ℕ (UR sig nD τ) ℕ (cfgs p) c) (c : Dev nD) :
    Pipeline.afterTail₀ cfgs dats 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (entry m c) _ main_arg1 (by exact (by decide : ∀ w, Pipeline.arrRef spec0 w ≠ main_arg1))]
  exact entry_arg1 m c

/-! ## The windows' blocks -/

/-- Window `w`'s block at grid point `t`: for the patch matrix rows 720·t … 720·t + 719, for the transposed weights
    the whole matrix, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The body never stores into the patch window's buffer, so at every point that buffer holds the point's block. -/
theorem found_patches {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The weight window is fetched once, at the first point, and its block index never moves: at every point its
    buffer holds the whole transposed matrix. -/
theorem found_weights {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The three whole-buffer rectangles the body loads and stores through. -/
abbrev rPatches : Rect S720x576 := Rect.unit (s := S720x576) ![0, 0] S720x576.size inb_S720x576_S720x576_0_0
abbrev rWeights : Rect S64x576 := Rect.unit (s := S64x576) ![0, 0] S64x576.size inb_S64x576_S64x576_0_0
abbrev rOut : Rect S720x64 := Rect.unit (s := S720x64) ![0, 0] S720x64.size inb_S720x64_S720x64_0_0

/-- The output block after the body, from the patch block `x0` and the weight block `x1`: the one store's value —
    the running maximum over the nine groups of 64 channels of patch entry plus weight — laid over the whole block. -/
def tropOut (x0 : Vec F S720x576 .f32) (x1 : Vec F S64x576 .f32) : Vec F S720x64 .f32 :=
  View.canon [⟨rOut, k0_pay1 (k0_pay2 (View.ld x0 rPatches)) (k0_pay3 (View.ld x1 rWeights))
    (k0_pay4 (View.ld x0 rPatches) (View.ld x1 rWeights)) (k0_pay5 (View.ld x0 rPatches) (View.ld x1 rWeights))⟩]

/-- That one store covers the block. -/
theorem out_covered (p0 : Vec F S720x64 .f32) (y : S720x64.Idx) :
    ∃ pc ∈ ([⟨rOut, p0⟩] : List (View.Piece (Elt F) S720x64 .f32)), y ∈ pc.1.set :=
  View.cover_of_tiled [⟨rOut, p0⟩] S720x64.size (by rfl) y

/-! ## The body's triple -/

set_option maxHeartbeats 1000000 in
/-- The body, on whole staging buffers holding a patch block `x0`, a weight block `x1` and anything in the output
    block, returns with the inputs as they were and the output block at `tropOut x0 x1`. -/
theorem body_triple (c : Dev nD) (E : Set ℕ) (i : grid0.Coords)
    (arg1 : Memref sig .tc .vmem S720x576 .f32) (harg1 : arg1.IsWhole) (arg2 : Memref sig .tc .vmem S64x576 .f32) (harg2 : arg2.IsWhole)
    (arg3 : Memref sig .tc .vmem S720x64 .f32) (harg3 : arg3.IsWhole)
    (x0 : Vec F S720x576 .f32) (x1 : Vec F S64x576 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (tropOut x0 x1)) -∗ K ⟨⟩))
      ⊢ wp frame (wpE (defs₀ (F := F)) Variants.none c none) E (cc0__tropical_kernel i arg1 harg1 arg2 harg2 arg3 harg3) K := by
  simp only [cc0__tropical_kernel_eq_skeleton]; unfold cc0__tropical_kernel_skel
  simp only [k0_part1_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The pipeline's proof data -/

/-- On core `c`: the three arrays as the region finds them; after the body at point `t` the two inputs' buffers
    still at their blocks and the output's at `tropOut` of them; nothing else held, nothing owed. -/
def pdata (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => tropOut (blockAt m c 0 t) (blockAt m c 1 t)
  Φ _ := Pipeline.ΦA spec0 c
  q _ := fullShare
  owed _ := 0

theorem pdata_A (c : Dev nD) (w : Fin cfg0.W) : (pdata m 0 c).A w = entryAt m c (Pipeline.arrRef spec0 w) := by
  dsimp only [pdata]

theorem after_patches (c : Dev nD) (t : Fin cfg0.N) : (pdata m 0 c).after 0 t = blockAt m c 0 t := by dsimp only [pdata]
theorem after_weights (c : Dev nD) (t : Fin cfg0.N) : (pdata m 0 c).after 1 t = blockAt m c 1 t := by dsimp only [pdata]
theorem after_out (c : Dev nD) (t : Fin cfg0.N) : (pdata m 0 c).after 2 t = tropOut (blockAt m c 0 t) (blockAt m c 1 t) := by dsimp only [pdata]

theorem before_patches (c : Dev nD) (t : Fin cfg0.N) (d) : (pdata m 0 c).before 0 t d = blockAt m c 0 t :=
  found_patches m (pdata m 0 c) (pdata_A m c 0) (after_patches m c) t d
theorem before_weights (c : Dev nD) (t : Fin cfg0.N) (d) : (pdata m 0 c).before 1 t d = blockAt m c 1 t :=
  found_weights m (pdata m 0 c) (pdata_A m c 1) (after_weights m c) t d

/-! ## The body obligation -/

/-- What the body is called with at point `t`, -/
def atCall (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d)))

/-- and what it returns. -/
def atReturn (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t))

theorem body_at (c : Dev nD) (t : Fin cfg0.N) :
    atCall m c t ⊢ wp frame (wpE (defs₀ (F := F)) Variants.none c none) Set.univ (bodyAt0 t) (fun _ => atReturn m c t) := by
  unfold atCall atReturn bodyAt0
  simp only [before_patches, before_weights]
  rw [show (pdata m 0 c).Φ t.succ = (pdata m 0 c).Φ t.castSucc from rfl,
    show (pdata m 0 c).owesAt () t.succ = (pdata m 0 c).owesAt () t.castSucc from rfl,
    after_patches, after_weights, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (pdata (F := F) m 0 c) (defs₀ (F := F)) Variants.none () Set.univ := fun t => by
  rw [bigSep_W0, bigSep_W0]
  exact body_at m c t

/-! ## The run and the frame -/

set_option backward.isDefEq.respectTransparency.types false in
/-- Every weakly fair execution of @main from the launch state terminates without a fault; at the end each of the
    three staged arrays holds what the write-backs made of it, and every other buffer what the final reshape left. -/
theorem run_main : θ_run defs (onTc (τ := τ) (main (F := F))) (s₀ m ρ) (Pipeline.FramePost cfgs (pdata m) 0 (Pipeline.afterTail₀ cfgs (pdata m) 0 (entry m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entry m) (opss := [hostOps1]) (hsub := suffix_sub) (hfresh := suffix_fresh') (hkeep := suffix_keeps)
    (hmain := main_around m Variants.none) (hA := pdata_A m) (hΦ := fun _ _ => rfl)

/-- The two argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (exit_arg0 m (pdata m) c),
     ((h c).2 main_arg1 (Pipeline.mem_restRefs_of main_arg1 (by decide) (by decide))).trans (exit_arg1 m (pdata m) c)⟩) (run_main m ρ)

end Cert.KernelIdeal.Trop

end
-- ==== Proof.TropEntry.lean ====
/-
  What the region of the idealized kernel program is entered with: the patch matrix is the patch tensor
  [4, 30, 30, 576] that the reference also builds (nine shifted slices of the image stacked on a new axis and
  flattened with the channels), flattened once more to [3600, 576]; the weight operand is the weight matrix transposed.
  Both are the layout operations' own terms: nothing is computed.
-/
import proofs.«172711_j9749575762016_1_alg».proof.Proof.TropFrameIdeal
import proofs.«172711_j9749575762016_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.TropVal

open Cert.KernelIdeal Cert.KernelIdeal.Gen Cert.KernelIdeal.Trop
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The image and the weights as launched on core `c`. -/
abbrev img (c : Dev nD) : FVec Ideal S4x32x32x64 .f32 := m ((c : Thread nD τ).loc main_arg0)
abbrev wts (c : Dev nD) : FVec Ideal S576x64 .f32 := m ((c : Thread nD τ).loc main_arg1)
/-- The patch tensor [4, 30, 30, 576] of the image, as both programs build it. -/
abbrev patches (c : Dev nD) : FVec Ideal S4x30x30x576 .f32 := Cert.ReferenceIdeal.Read.val_main_v19 (F := Ideal) (img m c)
/-- The reference's result [4, 30, 30, 64] of the image and the weights. -/
abbrev refOut (c : Dev nD) : FVec Ideal S4x30x30x64 .f32 := Cert.ReferenceIdeal.Read.val_main_v27 (F := Ideal) (img m c) (wts m c)

/-! ## What the region is entered with -/

/-- The patch matrix: the patch tensor flattened to [3600, 576]. -/
theorem entry_patches (c : Dev nD) :
    (entryAt m c main_v20 : S3600x576.Idx → Ideal .f32) = shapeCast S3600x576 (patches m c) shapeCasts_S4x30x30x576_S3600x576 := by
  show StableHlo.after hostOps0 (fun b => m (c, b)) (Proc.devRef .tc main_v20) = _
  after_results
  rfl

/-- The weights transposed to [64, 576]. -/
theorem entry_weights (c : Dev nD) :
    (entryAt m c main_v21 : S64x576.Idx → Ideal .f32) = transpose S64x576 [1, 0] (wts m c) transposes_S576x64_S64x576_1_0 := by
  show StableHlo.after hostOps0 (fun b => m (c, b)) (Proc.devRef .tc main_v21) = _
  after_results

end Cert.KernelIdeal.TropVal

end
-- ==== Proof.TropBlocks.lean ====
/-
  The blocks of the idealized kernel program's pipeline, read at an entry. Over the five grid points the patch and
  result windows move one block of 720 rows per point and the weight window stays put. Row r of point t's patch block
  is row 720·t + r of the patch matrix, which is the patch vector of the output position (n, h, w) whose row-major
  number is 720·t + r; entry (f, p) of the weight block is weight (p, f). The reference's result flattened to
  [3600, 64] is what the result array is to end holding.
-/
import proofs.«172711_j9749575762016_1_alg».proof.Proof.TropEntry

set_option maxRecDepth 16384

noncomputable section

namespace Cert.KernelIdeal.TropVal

open Cert.KernelIdeal Cert.KernelIdeal.Gen Cert.KernelIdeal.Trop
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks -/

/-- The block indices over the five grid points: the patch and result windows move one row block per point, the weight
    window stays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 5 := lt_of_lt_of_eq t.isLt N_0

/-- Entry (r, p) of point t's patch block sits at row 720·t + r, column p of the patch matrix. -/
theorem patch_row (t : Fin cfg0.N) (r : Fin 720) (p : Fin 576) (j : Fin 3600) (e : j.val = 720 * t.val + r.val) :
    ((cfg0.win 0).blk t).view.emb (ix2 r p) = ix2 j p := by
  obtain ⟨e0, e1, -, -, -, -⟩ := block_indices t
  funext a; apply Fin.ext
  match a with
  | ⟨0, _⟩ =>
    show win0_0.index t (0 : Fin 2) * 720 + 1 * r.val = j.val
    rw [e0, e]; omega
  | ⟨1, _⟩ =>
    show win0_0.index t (1 : Fin 2) * 576 + 1 * p.val = p.val
    rw [e1]; omega

/-- Any contents of the patch matrix's buffer, read through point t's block at (r, p), are its entry (720·t + r, p). -/
theorem read_patch_block (c : Dev nD) (A : Buf (Elt Ideal) ((c : Thread nD τ).loc main_v20)) (t : Fin cfg0.N) (r : Fin 720) (p : Fin 576)
    (j : Fin 3600) (e : j.val = 720 * t.val + r.val) :
    ((cfg0.win 0).blk t).view.read (Elt Ideal) A (ix2 r p) = (A : S3600x576.Idx → Ideal .f32) (ix2 j p) := by
  rw [View.read_apply, patch_row t r p j e]
  rfl

/-- Row r of point t's patch block is row 720·t + r of the patch matrix, i.e. the patch vector of the output
    position (n, h, w) with that row-major number. -/
theorem patch_block_at (c : Dev nD) (t : Fin cfg0.N) (r : Fin 720) (p : Fin 576) (n : Fin 4) (h w : Fin 30)
    (e : (n.val * 30 + h.val) * 30 + w.val = 720 * t.val + r.val) :
    blockAt m c 0 t (ix2 r p) = patches m c (ix4 n h w p) := by
  have hj : 720 * t.val + r.val < 3600 := by have := point_lt t; have := r.isLt; omega
  refine (read_patch_block c (entryAt m c main_v20) t r p ⟨_, hj⟩ rfl).trans ?_
  rw [entry_patches]
  refine shapeCast_apply _ shapeCasts_S4x30x30x576_S3600x576 _ (ix4 n h w p) ?_
  rewrite [Shape.rowMajor_val_four, Shape.rowMajor_val_two]
  show ((n.val * 30 + h.val) * 30 + w.val) * 576 + p.val = (720 * t.val + r.val) * 576 + p.val
  rw [e]

/-- The weight block is the whole transposed matrix: its entry (f, p) is weight (p, f). -/
theorem weight_block_at (c : Dev nD) (t : Fin cfg0.N) (f : Fin 64) (p : Fin 576) :
    blockAt m c 1 t (ix2 f p) = wts m c (ix2 p f) := by
  obtain ⟨-, -, e2, e3, -, -⟩ := block_indices t
  show (entryAt m c main_v21 : S64x576.Idx → Ideal .f32) (((cfg0.win 1).blk t).view.emb (ix2 f p)) = _
  rw [entry_weights]
  refine transpose_apply [1, 0] _ transposes_S576x64_S64x576_1_0 _ (ix2 p f) (fun b => ?_)
  match b with
  | ⟨0, _⟩ =>
    show f.val = win0_1.index t (0 : Fin 2) * 64 + 1 * f.val
    rw [e2]; omega
  | ⟨1, _⟩ =>
    show p.val = win0_1.index t (1 : Fin 2) * 576 + 1 * p.val
    rw [e3]; omega

/-- Entry (r, f) of point t's result block sits at row 720·t + r, column f of the result array. -/
theorem out_row (t : Fin cfg0.N) (r : Fin 720) (f : Fin 64) (j : Fin 3600) (e : j.val = 720 * t.val + r.val) :
    ((cfg0.win 2).blk t).view.emb (ix2 r f) = ix2 j f := by
  obtain ⟨-, -, -, -, e4, e5⟩ := block_indices t
  funext a; apply Fin.ext
  match a with
  | ⟨0, _⟩ =>
    show win0_2.index t (0 : Fin 2) * 720 + 1 * r.val = j.val
    rw [e4, e]; omega
  | ⟨1, _⟩ =>
    show win0_2.index t (1 : Fin 2) * 64 + 1 * f.val = f.val
    rw [e5]; omega

/-- Any contents of the result array's buffer, read through point t's block at (r, f), are its entry (720·t + r, f). -/
theorem read_out_block (c : Dev nD) (A : Buf (Elt Ideal) ((c : Thread nD τ).loc main_v22)) (t : Fin cfg0.N) (r : Fin 720) (f : Fin 64)
    (j : Fin 3600) (e : j.val = 720 * t.val + r.val) :
    ((cfg0.win 2).blk t).view.read (Elt Ideal) A (ix2 r f) = (A : S3600x64.Idx → Ideal .f32) (ix2 j f) := by
  rw [View.read_apply, out_row t r f j e]
  rfl

/-! ## The result array -/

theorem flat_shape : S4x30x30x64.ShapeCasts S3600x64 := by decide

/-- The reference's result flattened to [3600, 64]: what the result array is to end holding. -/
def flat (c : Dev nD) : FVec Ideal S3600x64 .f32 := shapeCast S3600x64 (refOut m c) flat_shape

theorem flat_at (c : Dev nD) (j : Fin 3600) (f : Fin 64) (n : Fin 4) (h w : Fin 30)
    (e : (n.val * 30 + h.val) * 30 + w.val = j.val) : flat m c (ix2 j f) = refOut m c (ix4 n h w f) := by
  unfold flat
  refine shapeCast_apply _ flat_shape _ (ix4 n h w f) ?_
  rewrite [Shape.rowMajor_val_four, Shape.rowMajor_val_two]
  show ((n.val * 30 + h.val) * 30 + w.val) * 64 + f.val = j.val * 64 + f.val
  rw [e]

end Cert.KernelIdeal.TropVal

end
-- ==== Proof.TropOrder.lean ====
/-
  The order fact behind the blocked maximum: folding `max` from a start value `b` over 576 entries gives the same
  as folding it over each of nine consecutive groups of 64 entries (each fold again from `b`) and taking the running
  maximum of `b` and the nine group results. Both are the least upper bound of `b` and all 576 entries; no
  property of `b` is used (in the program it is the lattice's bottom, but idempotence of `max` is enough).
-/
import Mathlib.Data.Finset.Fold
import Mathlib.Data.Fintype.Basic
import Mathlib.Order.Lattice

namespace Trop

variable {α : Type} [LinearOrder α]

/-- The running maximum over the nine groups is the fold over all entries: a value bounds the one iff it bounds `b`
    and every entry iff it bounds the other (entry p lies in group p / 64 at place p % 64). -/
theorem grouped_max_eq_fold (b : α) (g : Fin 576 → α) :
    max (max (max (max (max (max (max (max (max (b)
      ((Finset.univ : Finset (Fin 64)).fold max b (fun c => g ⟨0 + c.val, by have := c.isLt; omega⟩)))
      ((Finset.univ : Finset (Fin 64)).fold max b (fun c => g ⟨64 + c.val, by have := c.isLt; omega⟩)))
      ((Finset.univ : Finset (Fin 64)).fold max b (fun c => g ⟨128 + c.val, by have := c.isLt; omega⟩)))
      ((Finset.univ : Finset (Fin 64)).fold max b (fun c => g ⟨192 + c.val, by have := c.isLt; omega⟩)))
      ((Finset.univ : Finset (Fin 64)).fold max b (fun c => g ⟨256 + c.val, by have := c.isLt; omega⟩)))
      ((Finset.univ : Finset (Fin 64)).fold max b (fun c => g ⟨320 + c.val, by have := c.isLt; omega⟩)))
      ((Finset.univ : Finset (Fin 64)).fold max b (fun c => g ⟨384 + c.val, by have := c.isLt; omega⟩)))
      ((Finset.univ : Finset (Fin 64)).fold max b (fun c => g ⟨448 + c.val, by have := c.isLt; omega⟩)))
      ((Finset.univ : Finset (Fin 64)).fold max b (fun c => g ⟨512 + c.val, by have := c.isLt; omega⟩))
    = (Finset.univ : Finset (Fin 576)).fold max b g := by
  apply eq_of_forall_ge_iff
  intro z
  simp only [max_le_iff, Finset.fold_max_le, Finset.mem_univ, true_imp_iff]
  constructor
  · rintro ⟨⟨⟨⟨⟨⟨⟨⟨⟨hb, -, h0⟩, -, h1⟩, -, h2⟩, -, h3⟩, -, h4⟩, -, h5⟩, -, h6⟩, -, h7⟩, -, h8⟩
    refine ⟨hb, fun p => ?_⟩
    have hp := p.isLt
    have hc : p.val % 64 < 64 := Nat.mod_lt _ (by decide)
    have hd := Nat.div_add_mod p.val 64
    rcases (show p.val / 64 = 0 ∨ p.val / 64 = 1 ∨ p.val / 64 = 2 ∨ p.val / 64 = 3 ∨ p.val / 64 = 4 ∨ p.val / 64 = 5 ∨ p.val / 64 = 6 ∨ p.val / 64 = 7 ∨ p.val / 64 = 8 by omega) with e | e | e | e | e | e | e | e | e
    · have e' : g p = g ⟨0 + p.val % 64, by omega⟩ := congrArg g (Fin.ext (by show p.val = 0 + p.val % 64; omega))
      rw [e']; exact h0 ⟨p.val % 64, hc⟩
    · have e' : g p = g ⟨64 + p.val % 64, by omega⟩ := congrArg g (Fin.ext (by show p.val = 64 + p.val % 64; omega))
      rw [e']; exact h1 ⟨p.val % 64, hc⟩
    · have e' : g p = g ⟨128 + p.val % 64, by omega⟩ := congrArg g (Fin.ext (by show p.val = 128 + p.val % 64; omega))
      rw [e']; exact h2 ⟨p.val % 64, hc⟩
    · have e' : g p = g ⟨192 + p.val % 64, by omega⟩ := congrArg g (Fin.ext (by show p.val = 192 + p.val % 64; omega))
      rw [e']; exact h3 ⟨p.val % 64, hc⟩
    · have e' : g p = g ⟨256 + p.val % 64, by omega⟩ := congrArg g (Fin.ext (by show p.val = 256 + p.val % 64; omega))
      rw [e']; exact h4 ⟨p.val % 64, hc⟩
    · have e' : g p = g ⟨320 + p.val % 64, by omega⟩ := congrArg g (Fin.ext (by show p.val = 320 + p.val % 64; omega))
      rw [e']; exact h5 ⟨p.val % 64, hc⟩
    · have e' : g p = g ⟨384 + p.val % 64, by omega⟩ := congrArg g (Fin.ext (by show p.val = 384 + p.val % 64; omega))
      rw [e']; exact h6 ⟨p.val % 64, hc⟩
    · have e' : g p = g ⟨448 + p.val % 64, by omega⟩ := congrArg g (Fin.ext (by show p.val = 448 + p.val % 64; omega))
      rw [e']; exact h7 ⟨p.val % 64, hc⟩
    · have e' : g p = g ⟨512 + p.val % 64, by omega⟩ := congrArg g (Fin.ext (by show p.val = 512 + p.val % 64; omega))
      rw [e']; exact h8 ⟨p.val % 64, hc⟩
  · rintro ⟨hb, hall⟩
    exact ⟨⟨⟨⟨⟨⟨⟨⟨⟨hb, hb, fun c => hall _⟩, hb, fun c => hall _⟩, hb, fun c => hall _⟩, hb, fun c => hall _⟩, hb, fun c => hall _⟩, hb, fun c => hall _⟩, hb, fun c => hall _⟩, hb, fun c => hall _⟩, hb, fun c => hall _⟩

end Trop
-- ==== Proof.TropPayload.lean ====
/-
  The body's stored value, read at one entry, at the exact (extended-real) values.

  For a patch block `x0` [720, 576] and a weight block `x1` [64, 576] the body computes, for row `r` and output
  channel `f`, nine group maxima — group `k` is the maximum over c < 64 of x0[r, 64k + c] + x1[f, 64k + c], folded
  from the −∞ pattern —, keeps the running maximum of the −∞ pattern and the nine, and multiplies by the pattern of 1.
  By the order fact of `Trop.grouped_max_eq_fold` that running maximum is one fold over all 576 positions.
  The two bit patterns are never evaluated: the reference carries the same two terms.
-/
import proofs.«172711_j9749575762016_1_alg».proof.Proof.Gen.KernelIdeal.Skeleton
import proofs.«172711_j9749575762016_1_alg».proof.Proof.TropOrder
import Idealize.ShloMosaic.Lib.ValueIdx
import Idealize.ShloMosaic.Lib.Pipeline.Value
import Idealize.ShloMosaic.PureOps.Ideal.Laws

noncomputable section

namespace Cert.KernelIdeal.TropVal

open Cert.KernelIdeal Cert.KernelIdeal.Gen Idealize.ShloMosaic Idealize.ShloMosaic.ValueIdx

/-- The value of the pattern the maxima start from (−∞), and of the final factor's pattern (1). -/
abbrev start : Ideal .f32 := Ideal.ofBits .f32 0xFF800000#32
abbrev unit : Ideal .f32 := Ideal.ofBits .f32 0x3F800000#32

/-- The index the lane reduction reads for result entry (r, f) at lane c is (r, f, c). -/
theorem lane_index (r : Fin 720) (f : Fin 64) (c : Fin 64) :
    (reduces_S720x64x64_S720x64 : S720x64x64.Reduces [2] S720x64).lift (ix2 r f) c = ix3 r f c := by
  funext a; apply Fin.ext
  match a with
  | ⟨0, _⟩ => rfl
  | ⟨1, _⟩ => rfl
  | ⟨2, _⟩ => rfl

/-- The patch operand of a group's sum, at (r, f, c): the patch block at (r, o + c), whatever f. -/
theorem patch_lane (o : Nat) (ho : o + 64 ≤ 576) (x0 : FVec Ideal S720x576 .f32) (hs0 : S720x576.Slices ![0, o] S720x64)
    (r : Fin 720) (f : Fin 64) (c : Fin 64) :
    broadcastTo S720x64x64 (shapeCast S720x1x64 (extractStridedSlice S720x64 ![0, o] x0 hs0) shapeCasts_S720x64_S720x1x64)
        broadcasts_S720x1x64_S720x64x64 (ix3 r f c)
      = x0 (ix2 r ⟨o + c.val, by have := c.isLt; omega⟩) := by
  refine (broadcastTo_apply _ broadcasts_S720x1x64_S720x64x64 (ix3 r f c) (ix3 r (0 : Fin 1) c) (fun a => ?_)).trans ?_
  · match a with
    | ⟨0, _⟩ => show r.val = if (720 : Nat) = 1 then 0 else r.val; rw [if_neg (by decide)]
    | ⟨1, _⟩ => show 0 = if (1 : Nat) = 1 then 0 else f.val; rw [if_pos rfl]
    | ⟨2, _⟩ => show c.val = if (64 : Nat) = 1 then 0 else c.val; rw [if_neg (by decide)]
  refine (shapeCast_apply _ shapeCasts_S720x64_S720x1x64 (ix3 r (0 : Fin 1) c) (ix2 r c) ?_).trans ?_
  · rewrite [Shape.rowMajor_val_two, Shape.rowMajor_val_three]
    show r.val * 64 + c.val = (r.val * 1 + 0) * 64 + c.val
    omega
  refine extractStridedSlice_apply ![0, o] x0 hs0 (ix2 r c) (ix2 r ⟨o + c.val, by have := c.isLt; omega⟩) (fun a => ?_)
  match a with
  | ⟨0, _⟩ => show r.val = 0 + r.val; omega
  | ⟨1, _⟩ => show o + c.val = o + c.val; rfl

/-- The weight operand of a group's sum, at (r, f, c): the weight block at (f, o + c), whatever r. -/
theorem weight_lane (o : Nat) (ho : o + 64 ≤ 576) (x1 : FVec Ideal S64x576 .f32) (hs1 : S64x576.Slices ![0, o] S64x64)
    (r : Fin 720) (f : Fin 64) (c : Fin 64) :
    broadcastTo S720x64x64 (shapeCast S1x64x64 (extractStridedSlice S64x64 ![0, o] x1 hs1) shapeCasts_S64x64_S1x64x64)
        broadcasts_S1x64x64_S720x64x64 (ix3 r f c)
      = x1 (ix2 f ⟨o + c.val, by have := c.isLt; omega⟩) := by
  refine (broadcastTo_apply _ broadcasts_S1x64x64_S720x64x64 (ix3 r f c) (ix3 (0 : Fin 1) f c) (fun a => ?_)).trans ?_
  · match a with
    | ⟨0, _⟩ => show 0 = if (1 : Nat) = 1 then 0 else r.val; rw [if_pos rfl]
    | ⟨1, _⟩ => show f.val = if (64 : Nat) = 1 then 0 else f.val; rw [if_neg (by decide)]
    | ⟨2, _⟩ => show c.val = if (64 : Nat) = 1 then 0 else c.val; rw [if_neg (by decide)]
  refine (shapeCast_apply _ shapeCasts_S64x64_S1x64x64 (ix3 (0 : Fin 1) f c) (ix2 f c) ?_).trans ?_
  · rewrite [Shape.rowMajor_val_two, Shape.rowMajor_val_three]
    show f.val * 64 + c.val = (0 * 64 + f.val) * 64 + c.val
    omega
  refine extractStridedSlice_apply ![0, o] x1 hs1 (ix2 f c) (ix2 f ⟨o + c.val, by have := c.isLt; omega⟩) (fun a => ?_)
  match a with
  | ⟨0, _⟩ => show f.val = 0 + f.val; omega
  | ⟨1, _⟩ => show o + c.val = o + c.val; rfl

/-- The lane reduction of any [720, 64, 64] vector at (r, f): the fold of `max` from the start value over its 64 lanes. -/
theorem lane_max (src : FVec Ideal S720x64x64 .f32) (r : Fin 720) (f : Fin 64) :
    multiReduction (F := Ideal) .maximumf [2] S720x64 src 0xFF800000#32 reduces_S720x64x64_S720x64 (.inl rfl) rfl (ix2 r f)
      = (Finset.univ : Finset (Fin 64)).fold max start (fun c => src (ix3 r f c)) := by
  refine (Ideal.multiReduction_maximumf_single (s := S720x64x64) (t := S720x64) (a := (2 : Fin 3)) src 0xFF800000#32
    reduces_S720x64x64_S720x64 (.inl rfl) rfl (ix2 r f)).trans ?_
  refine congrArg (fun g => (Finset.univ : Finset (Fin 64)).fold max start g) (funext fun c => ?_)
  exact congrArg src (lane_index r f c)

/-- One group's maximum at (r, f): the fold of `max` from the start value over the 64 sums of the group. -/
theorem group_max (o : Nat) (ho : o + 64 ≤ 576) (x0 : FVec Ideal S720x576 .f32) (x1 : FVec Ideal S64x576 .f32)
    (hs0 : S720x576.Slices ![0, o] S720x64) (hs1 : S64x576.Slices ![0, o] S64x64) (r : Fin 720) (f : Fin 64) :
    multiReduction (F := Ideal) .maximumf [2] S720x64
        (addf (broadcastTo S720x64x64 (shapeCast S720x1x64 (extractStridedSlice S720x64 ![0, o] x0 hs0) shapeCasts_S720x64_S720x1x64) broadcasts_S720x1x64_S720x64x64)
              (broadcastTo S720x64x64 (shapeCast S1x64x64 (extractStridedSlice S64x64 ![0, o] x1 hs1) shapeCasts_S64x64_S1x64x64) broadcasts_S1x64x64_S720x64x64))
        0xFF800000#32 reduces_S720x64x64_S720x64 (.inl rfl) rfl (ix2 r f)
      = (Finset.univ : Finset (Fin 64)).fold max start
          (fun c => x0 (ix2 r ⟨o + c.val, by have := c.isLt; omega⟩) + x1 (ix2 f ⟨o + c.val, by have := c.isLt; omega⟩)) := by
  refine (lane_max _ r f).trans ?_
  refine congrArg (fun g => (Finset.univ : Finset (Fin 64)).fold max start g) (funext fun c => ?_)
  exact congrArg₂ (· + ·) (patch_lane o ho x0 hs0 r f c) (weight_lane o ho x1 hs1 r f c)

/-- The body's last steps at one entry: nine running maxima, then the product with the unit vector. -/
theorem nine_max (B M0 M1 M2 M3 M4 M5 M6 M7 M8 U : FVec Ideal S720x64 .f32) (i : S720x64.Idx) :
    mulf (maximumf (maximumf (maximumf (maximumf (maximumf (maximumf (maximumf (maximumf (maximumf B M0) M1) M2) M3) M4) M5) M6) M7) M8) U i
      = max (max (max (max (max (max (max (max (max (B i) (M0 i)) (M1 i)) (M2 i)) (M3 i)) (M4 i)) (M5 i)) (M6 i)) (M7 i)) (M8 i) * U i := rfl

/-- THE STORED VALUE at (r, f): the maximum, from the start value, of patch entry plus weight over all 576 positions,
    times the unit factor. -/
theorem stored_at (x0 : FVec Ideal S720x576 .f32) (x1 : FVec Ideal S64x576 .f32) (r : Fin 720) (f : Fin 64) :
    k0_pay1 (F := Ideal) (k0_pay2 x0) (k0_pay3 x1) (k0_pay4 x0 x1) (k0_pay5 x0 x1) (ix2 r f)
      = (Finset.univ : Finset (Fin 576)).fold max start (fun p => x0 (ix2 r p) + x1 (ix2 f p)) * unit := by
  unfold k0_pay1 k0_pay4 k0_pay5 k0_pay2 k0_pay3
  simp only [shapeCast_self]
  refine (nine_max _ _ _ _ _ _ _ _ _ _ _ (ix2 r f)).trans ?_
  refine congrArg₂ (· * ·) ?_ ?_
  · rw [group_max 0 (by omega) x0 x1 _ _ r f, group_max 64 (by omega) x0 x1 _ _ r f, group_max 128 (by omega) x0 x1 _ _ r f,
      group_max 192 (by omega) x0 x1 _ _ r f, group_max 256 (by omega) x0 x1 _ _ r f, group_max 320 (by omega) x0 x1 _ _ r f,
      group_max 384 (by omega) x0 x1 _ _ r f, group_max 448 (by omega) x0 x1 _ _ r f, group_max 512 (by omega) x0 x1 _ _ r f]
    exact Trop.grouped_max_eq_fold start (fun p => x0 (ix2 r p) + x1 (ix2 f p))
  · rfl

end Cert.KernelIdeal.TropVal

end
-- ==== Proof.TropRef.lean ====
/-
  The reference's result, read at one entry, at the exact (extended-real) values.

  At output position (n, h, w) and channel f the reference takes the maximum, from the −∞ pattern, over all 576 patch
  positions p of patch entry (n, h, w, p) plus weight (p, f), and multiplies by the pattern of 1. The patch tensor
  itself (nine shifted slices of the image stacked and flattened) is left as the function the program builds: the
  kernel builds the same one, so it is never opened.
-/
import proofs.«172711_j9749575762016_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.TropRef

open Cert.ReferenceIdeal Cert.ReferenceIdeal.Gen Cert.ReferenceIdeal.Read Idealize.ShloMosaic Idealize.ShloMosaic.ValueIdx

/-- The shape fact that names the reduced axis (the fourth of five). -/
theorem hred : S4x30x30x576x64.Reduces [3] S4x30x30x64 := by decide

/-- The source index the reduction reads for result entry (n, h, w, f) at patch position p is (n, h, w, p, f). -/
theorem red_index (n : Fin 4) (h w : Fin 30) (f : Fin 64) (p : Fin 576) :
    hred.lift (ix4 n h w f) p = ix5 n h w p f := by
  funext a; apply Fin.ext
  match a with
  | ⟨0, _⟩ => rfl
  | ⟨1, _⟩ => rfl
  | ⟨2, _⟩ => rfl
  | ⟨3, _⟩ => rfl
  | ⟨4, _⟩ => rfl

/-- The two broadcasts of the patch tensor read (n, h, w, p, f) at (n, h, w, p), -/
theorem patch_index (n : Fin 4) (h w : Fin 30) (f : Fin 64) (p : Fin 576) :
    idx_main_v20 (idx_main_v22 (ix5 n h w p f)) = ix4 n h w p := by
  funext a; apply Fin.ext
  match a with
  | ⟨0, _⟩ => rfl
  | ⟨1, _⟩ => rfl
  | ⟨2, _⟩ => rfl
  | ⟨3, _⟩ => rfl

/-- and the two broadcasts of the weights read it at (p, f). -/
theorem weight_index (n : Fin 4) (h w : Fin 30) (f : Fin 64) (p : Fin 576) :
    idx_main_v21 (idx_main_v23 (ix5 n h w p f)) = ix2 p f := by
  funext a; apply Fin.ext
  match a with
  | ⟨0, _⟩ => rfl
  | ⟨1, _⟩ => rfl

set_option maxRecDepth 65536 in
/-- THE REFERENCE'S RESULT at (n, h, w, f). -/
theorem ref_at (X : FVec Ideal S4x32x32x64 .f32) (K : FVec Ideal S576x64 .f32) (n : Fin 4) (h w : Fin 30) (f : Fin 64) :
    val_main_v27 (F := Ideal) X K (ix4 n h w f)
      = (Finset.univ : Finset (Fin 576)).fold max (Ideal.ofBits .f32 0xFF800000#32)
          (fun p => val_main_v19 (F := Ideal) X (ix4 n h w p) + K (ix2 p f)) * Ideal.ofBits .f32 0x3F800000#32 := by
  rw [val_main_v27_apply]
  refine congrArg₂ (· * ·) ?_ ?_
  · unfold val_main_v25
    have key := Host.reduce_eq_fold_single (s := S4x30x30x576x64) (t := S4x30x30x64) (a := (3 : Fin 5)) (u := S_)
      (FloatOps.maximumf (F := Ideal) (φ := .f32)) (val_main_v24 (F := Ideal) X K) (val_main_cst (F := Ideal))
      reducesTo_S4x30x30x576x64_S4x30x30x64_d3 hred h_S_ (ix4 n h w f)
    refine key.trans ?_
    show (Finset.univ : Finset (Fin 576)).fold max (Ideal.ofBits .f32 0xFF800000#32)
      (fun p => val_main_v24 (F := Ideal) X K (hred.lift (ix4 n h w f) p)) = _
    refine congrArg (fun g => (Finset.univ : Finset (Fin 576)).fold max (Ideal.ofBits .f32 0xFF800000#32) g) (funext fun p => ?_)
    rw [red_index n h w f p, val_main_v24_apply, val_main_v22_apply, val_main_v20_apply, val_main_v23_apply, val_main_v21_apply,
      patch_index n h w f p, weight_index n h w f p]
    rfl
  · rw [val_main_v26_apply]; rfl

end Cert.ReferenceIdeal.TropRef

end
-- ==== Proof.TropValue.lean ====
/-
  The value the idealized kernel program ends with: its result array is the reference's result, entry by entry.

  Grid point t stages rows 720·t … 720·t + 719 of the patch matrix and the whole transposed weight matrix, and
  writes back, for row r and channel f, the maximum over the 576 positions p of patch entry plus weight (p, f),
  times the unit factor (`stored_at`): that is the reference's entry at the output position (n, h, w) whose
  row-major number is 720·t + r (`TropRef.ref_at`). The five row blocks tile the [3600, 64] result array, and
  the final reshape to [4, 30, 30, 64] undoes the flattening.
-/
import proofs.«172711_j9749575762016_1_alg».proof.Proof.TropBlocks
import proofs.«172711_j9749575762016_1_alg».proof.Proof.TropPayload
import proofs.«172711_j9749575762016_1_alg».proof.Proof.TropRef

set_option maxRecDepth 16384

noncomputable section

namespace Cert.KernelIdeal.TropVal

open Cert.KernelIdeal Cert.KernelIdeal.Gen Cert.KernelIdeal.Trop
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result window is never cut: what is written back of a block is the block. -/
theorem cut_out (t : Fin cfg0.N) (X : Vec Ideal S720x64 .f32) : (cfg0.win 2).cut (grid0.coords t) X = X := rfl

/-- The body's result at (r, f) for point t: the reference's entry at row 720·t + r of the flattened result. -/
theorem stored_is_ref (c : Dev nD) (t : Fin cfg0.N) (r : Fin 720) (f : Fin 64) (j : Fin 3600) (ej : j.val = 720 * t.val + r.val) :
    k0_pay1 (F := Ideal) (k0_pay2 (blockAt m c 0 t)) (k0_pay3 (blockAt m c 1 t)) (k0_pay4 (blockAt m c 0 t) (blockAt m c 1 t))
      (k0_pay5 (blockAt m c 0 t) (blockAt m c 1 t)) (ix2 r f) = flat m c (ix2 j f) := by
  have hj := j.isLt
  have hn : j.val / 900 < 4 := by omega
  have hh : j.val / 30 % 30 < 30 := Nat.mod_lt _ (by decide)
  have hw : j.val % 30 < 30 := Nat.mod_lt _ (by decide)
  have e : (j.val / 900 * 30 + j.val / 30 % 30) * 30 + j.val % 30 = j.val := by omega
  refine (stored_at (blockAt m c 0 t) (blockAt m c 1 t) r f).trans ?_
  rw [flat_at m c j f ⟨_, hn⟩ ⟨_, hh⟩ ⟨_, hw⟩ e]
  refine Eq.trans ?_ (Cert.ReferenceIdeal.TropRef.ref_at (img m c) (wts m c) ⟨_, hn⟩ ⟨_, hh⟩ ⟨_, hw⟩ f).symm
  refine congrArg₂ (· * ·) (congrArg (fun g => (Finset.univ : Finset (Fin 576)).fold max start g) (funext fun p => ?_)) rfl
  exact congrArg₂ (· + ·) (patch_block_at m c t r p ⟨_, hn⟩ ⟨_, hh⟩ ⟨_, hw⟩ (e.trans ej)) (weight_block_at m c t f p)

/-- WHAT POINT t WRITES BACK is block t of the flattened reference result. -/
theorem flushed_eq (c : Dev nD) (t : Fin cfg0.N) :
    (pdata m 0 c).flushed 2 t = ((cfg0.win 2).blk t).view.read (Elt Ideal) (flat m c) := by
  show (cfg0.win 2).cut (grid0.coords t) ((pdata m 0 c).after 2 t) = _
  rw [after_out]
  unfold tropOut
  rw [View.canon_unit_zero zero_offsets]
  simp only [View.ld_unit_zero (S := S720x576) zero_offsets, View.ld_unit_zero (S := S64x576) zero_offsets]
  rw [cut_out t]
  refine funext fun (y : S720x64.Idx) => ?_
  obtain ⟨r, f, rfl⟩ : ∃ (r : Fin 720) (f : Fin 64), y = ix2 r f := ⟨y 0, y 1, eq_ix2 y⟩
  have hj : 720 * t.val + r.val < 3600 := by have := point_lt t; have := r.isLt; omega
  rw [read_out_block c (flat m c) t r f ⟨_, hj⟩ rfl]
  exact stored_is_ref m c t r f ⟨_, hj⟩ rfl

/-- An index of the result array is in point t's block iff its row is in t's 720 rows. -/
theorem mem_out_block (t : Fin cfg0.N) (i : S3600x64.Idx) :
    i ∈ ((cfg0.win 2).blk t).view.set ↔ ∀ a : Fin 2, win0_2.index t a * S720x64.size a ≤ (i a).val ∧ (i a).val < win0_2.index t a * S720x64.size a + S720x64.size a := by
  show i ∈ ((View.whole main_v22).slice (win0_2.rect t)).set ↔ _
  rw [View.set_slice_whole, Rect.mem_set_unit]
  exact Iff.rfl

/-- Every index of the result array is in the block of the point its row belongs to. -/
theorem out_covered' (i : S3600x64.Idx) : ∃ t : Fin cfg0.N, (cfg0.win 2).flush t = true ∧ i ∈ ((cfg0.win 2).blk t).view.set := by
  have hi0 : (i 0).val < 3600 := (i 0).isLt
  have hi1 : (i 1).val < 64 := (i 1).isLt
  have hN : (i 0).val / 720 < cfg0.N := lt_of_lt_of_eq (by omega : (i 0).val / 720 < 5) N_0.symm
  refine ⟨⟨(i 0).val / 720, hN⟩, flush0_2 _, ?_⟩
  obtain ⟨-, -, -, -, e4, e5⟩ := block_indices ⟨(i 0).val / 720, hN⟩
  rw [mem_out_block]
  intro a
  match a with
  | ⟨0, _⟩ =>
    show win0_2.index ⟨(i 0).val / 720, hN⟩ (0 : Fin 2) * 720 ≤ (i 0).val ∧ (i 0).val < win0_2.index ⟨(i 0).val / 720, hN⟩ (0 : Fin 2) * 720 + 720
    rw [e4]; show (i 0).val / 720 * 720 ≤ (i 0).val ∧ (i 0).val < (i 0).val / 720 * 720 + 720; omega
  | ⟨1, _⟩ =>
    show win0_2.index ⟨(i 0).val / 720, hN⟩ (1 : Fin 2) * 64 ≤ (i 1).val ∧ (i 1).val < win0_2.index ⟨(i 0).val / 720, hN⟩ (1 : Fin 2) * 64 + 64
    rw [e5]; omega

/-- THE RESULT ARRAY after the region: the flattened reference result. -/
theorem out_final (c : Dev nD) : (pdata m 0 c).arrAt 2 cfg0.N = flat m c :=
  (pdata m 0 c).arrAt_eq_of_cover 2 (flat m c) (fun t _ => flushed_eq m c t) out_covered'

/-! ## After the final reshape -/

/-- The program's result buffer after the reshape that follows the region: the result array unflattened. -/
theorem exit_result (c : Dev nD) :
    (Pipeline.afterTail₀ cfgs (pdata m) 0 (entry m) [hostOps1] c main_v23 : S4x30x30x64.Idx → Ideal .f32)
      = shapeCast S4x30x30x64 ((pdata m 0 c).arrAt 2 cfg0.N) shapeCasts_S3600x64_S4x30x30x64 := by
  have hw : Pipeline.withArrays (cfgs 0).spec c (entry m c) (fun w => (pdata m 0 c).arrAt w (cfgs 0).N) (Proc.devRef .tc main_v22)
      = (pdata m 0 c).arrAt 2 cfg0.N :=
    Pipeline.withArrays_arr spec0 launch0.win.arr_inj c (entry m c) (fun w => (pdata m 0 c).arrAt w cfg0.N) 2
  unfold Pipeline.afterTail₀
  show StableHlo.after hostOps1 _ (Proc.devRef .tc main_v23) = _
  after_results
  rw [hw]
  rfl

/-- So the result buffer ends holding the reference's result. -/
theorem result_eq (c : Dev nD) :
    (Pipeline.afterTail₀ cfgs (pdata m) 0 (entry m) [hostOps1] c main_v23 : S4x30x30x64.Idx → Ideal .f32) = refOut m c := by
  rw [exit_result, out_final]
  unfold flat
  exact shapeCast_shapeCast (refOut m c) flat_shape shapeCasts_S3600x64_S4x30x30x64

/-! ## The run, read -/

/-- Every weakly fair execution of the idealized kernel program terminates with the result buffer at the reference's
    result of the launched image and weights, and those two as launched. -/
theorem run_value : θ_run defs (onTc (τ := τ) (main (F := Ideal))) ⟨m, fun _ => 0, ρ⟩ (fun r => ∀ c : Dev nD,
      r.2.mem ((c.tc : Thread nD τ).loc main_v23) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v23 (Pipeline.mem_restRefs_of main_v23 (by decide) (by decide))).trans (result_eq m c),
     ((h c).2 main_arg0 (Pipeline.mem_restRefs_of main_arg0 (by decide) (by decide))).trans (exit_arg0 m (pdata m) c),
     ((h c).2 main_arg1 (Pipeline.mem_restRefs_of main_arg1 (by decide) (by decide))).trans (exit_arg1 m (pdata m) c)⟩) (run_main m ρ)

end Cert.KernelIdeal.TropVal

end
-- ==== Proof.lean ====
/-
  Max-plus ("tropical") convolution: a Pallas kernel against its jnp reference, over the extended reals.

  Both programs cut the image [4, 32, 32, 64] into 3×3 patches (nine shifted slices stacked on a new axis and
  flattened with the channels: a patch tensor [4, 30, 30, 576]) and, for every output position and output channel f,
  take the maximum over the 576 patch positions p of patch entry plus weight (p, f), starting from −∞ and finally
  multiplied by 1. The reference does it with one reduction over p. The kernel flattens the positions to 3600 rows,
  transposes the weights, and runs five grid points of 720 rows each; at a point it folds the maximum over nine
  groups of 64 positions (each from −∞) and keeps the running maximum of −∞ and the nine group maxima.

  The two are equal because `max` is associative, commutative and idempotent: a bound of the running maximum over the
  groups is a bound of −∞ and of every term, and conversely (`Trop.grouped_max_eq_fold`). The sums are the same sums on
  both sides and the two bit patterns (−∞, 1) are the same terms on both sides, so no property of the inputs is used;
  the precondition is never opened.

  The three frame claims: each kernel program's run is the pipeline's run around its layout operations
  (`Trop.run_main`), from which the argument arrays are read back unchanged; the reference is host operations only.
  The idealization rewrote nothing, so `preserves` has no conjunct.
-/
import proofs.«172711_j9749575762016_1_alg».proof.Defs
import proofs.«172711_j9749575762016_1_alg».proof.Proof.Gen.Kernel
import proofs.«172711_j9749575762016_1_alg».proof.Proof.Gen.KernelIdeal
import proofs.«172711_j9749575762016_1_alg».proof.Proof.Gen.ReferenceIdeal
import proofs.«172711_j9749575762016_1_alg».proof.Proof.Gen.Pre_finite_inputs
import proofs.«172711_j9749575762016_1_alg».proof.Proof.Gen.ReferenceIdeal.Run
import proofs.«172711_j9749575762016_1_alg».proof.Proof.Gen.ReferenceIdeal.Read
import proofs.«172711_j9749575762016_1_alg».proof.Proof.TropFrameBits
import proofs.«172711_j9749575762016_1_alg».proof.Proof.TropFrameIdeal
import proofs.«172711_j9749575762016_1_alg».proof.Proof.TropValue
import Idealize.ShloMosaic.Adequacy
import Idealize.ShloMosaic.Init

noncomputable section

namespace Cert.Proof

open Idealize.ShloMosaic Idealize.SL.Sem

/-- The word-level kernel program runs to the end and leaves its two arguments as launched. -/
theorem frame_kernel : Cert.frame_Kernel := fun m ρ _ => Cert.Kernel.Trop.frame (F := Bits) m ρ

/-- So does the idealized kernel program. -/
theorem frame_kernel_ideal : Cert.frame_KernelIdeal := fun m ρ _ => Cert.KernelIdeal.Trop.frame (F := Ideal) m ρ

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the image and the weights both programs end with the reference's result of them. -/
theorem algebraic : Cert.algebraic_KernelIdeal_ReferenceIdeal := by
  intro m ρ m' ρ' _ hagree
  refine ⟨fun c => Cert.KernelIdeal.TropVal.refOut m c, Cert.KernelIdeal.TropVal.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
